-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S128x64 : Shape := ⟨2, ![128, 64]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_

variable [Facts]

def fn {F : FTy → Type} [FloatOps F] (main_arg0 : FVec F S16384x128 .f32) (main_arg1 : FVec F S128x64 .f32) (main_arg2 : FVec F S128x64 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  main_v13
-- ==== Kernel.lean ====
abbrev S16384x128 : Shape := ⟨2, ![16384, 128]⟩
abbrev S128x64 : Shape := ⟨2, ![128, 64]⟩
abbrev S128x128 : Shape := ⟨2, ![128, 128]⟩
abbrev S_ : Shape := ⟨0, ![]⟩
abbrev S128x128x1 : Shape := ⟨3, ![128, 128, 1]⟩
abbrev S1x128x64 : Shape := ⟨3, ![1, 128, 64]⟩
abbrev S128x128x64 : Shape := ⟨3, ![128, 128, 64]⟩
abbrev S128x8192 : Shape := ⟨2, ![128, 8192]⟩
abbrev S1x8192 : Shape := ⟨2, ![1, 8192]⟩
abbrev S16384x8192 : Shape := ⟨2, ![16384, 8192]⟩

abbrev nBuf : Space → Nat
  | .hbm => 19
  | .vmem => 6
  | .smem => 0
  | _ => 0

abbrev bufTy : (tb : Table) → Fin (tcTables nBuf tb) → BufTy
  | .hbm, ⟨0, _⟩ => ⟨S16384x128, .f32⟩
  | .hbm, ⟨1, _⟩ => ⟨S128x64, .f32⟩
  | .hbm, ⟨2, _⟩ => ⟨S128x64, .f32⟩
  | .hbm, ⟨3, _⟩ => ⟨S128x128, .i32⟩
  | .hbm, ⟨4, _⟩ => ⟨S128x128, .i32⟩
  | .hbm, ⟨5, _⟩ => ⟨S_, .i32⟩
  | .hbm, ⟨6, _⟩ => ⟨S128x128, .i32⟩
  | .hbm, ⟨7, _⟩ => ⟨S128x128, .i32⟩
  | .hbm, ⟨8, _⟩ => ⟨S128x128, .i1⟩
  | .hbm, ⟨9, _⟩ => ⟨S128x128, .f32⟩
  | .hbm, ⟨10, _⟩ => ⟨S128x128x1, .f32⟩
  | .hbm, ⟨11, _⟩ => ⟨S1x128x64, .f32⟩
  | .hbm, ⟨12, _⟩ => ⟨S128x128x64, .f32⟩
  | .hbm, ⟨13, _⟩ => ⟨S128x128x64, .f32⟩
  | .hbm, ⟨14, _⟩ => ⟨S128x128x64, .f32⟩
  | .hbm, ⟨15, _⟩ => ⟨S128x8192, .f32⟩
  | .hbm, ⟨16, _⟩ => ⟨S128x8192, .bf16⟩
  | .hbm, ⟨17, _⟩ => ⟨S1x8192, .f32⟩
  | .hbm, ⟨18, _⟩ => ⟨S16384x8192, .f32⟩
  | .local _ .vmem, ⟨0, _⟩ => ⟨S128x128, .f32⟩
  | .local _ .vmem, ⟨1, _⟩ => ⟨S128x128, .f32⟩
  | .local _ .vmem, ⟨2, _⟩ => ⟨S128x8192, .bf16⟩
  | .local _ .vmem, ⟨3, _⟩ => ⟨S1x8192, .f32⟩
  | .local _ .vmem, ⟨4, _⟩ => ⟨S128x8192, .f32⟩
  | .local _ .vmem, ⟨5, _⟩ => ⟨S128x8192, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S128x128 : S_.BroadcastsInDim S128x128 (![] : Fin 0 → Fin S128x128.rank)
  bcast_S128x128_S128x128x1_0_1 : S128x128.BroadcastsInDim S128x128x1 (![0, 1] : Fin 2 → Fin S128x128x1.rank)
  bcast_S128x64_S1x128x64_1_2 : S128x64.BroadcastsInDim S1x128x64 (![1, 2] : Fin 2 → Fin S1x128x64.rank)
  bcast_S128x128x1_S128x128x64_0_1_2 : S128x128x1.BroadcastsInDim S128x128x64 (![0, 1, 2] : Fin 3 → Fin S128x128x64.rank)
  bcast_S1x128x64_S128x128x64_0_1_2 : S1x128x64.BroadcastsInDim S128x128x64 (![0, 1, 2] : Fin 3 → Fin S128x128x64.rank)
  shapeCasts_S128x128x64_S128x8192 : S128x128x64.ShapeCasts S128x8192
  bitsLt_bf16_f32 : FTy.bits .bf16 < FTy.bits .f32
  shapeCasts_S128x64_S1x8192 : S128x64.ShapeCasts S1x8192
  inb_S128x128_S128x128_0_0 : ∀ a, (![0, 0] : Fin 2 → Nat) a + S128x128.size a ≤ S128x128.size a
  h_S128x128 : 0 < S128x128.numel
  inb_S128x8192_S128x8192_0_0 : ∀ a, (![0, 0] : Fin 2 → Nat) a + S128x8192.size a ≤ S128x8192.size a
  h_S128x8192 : 0 < S128x8192.numel
  shapeCasts_S128x8192_S128x8192 : S128x8192.ShapeCasts S128x8192
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S1x8192_S128x8192 : S1x8192.Broadcasts S128x8192
  dot_S128x128_S128x8192_S128x8192_1_0_0_1_n_n_wf : DotDims.WF S128x128 S128x8192 S128x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S16384x128.size a
  hwx0_0 : ∀ i : grid0.Coords, EltTy.bits .f32 = 32 ∨ (Rect.block (s := S16384x128) S128x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x8192.size a ≤ S128x8192.size a
  hwx0_1 : ∀ i : grid0.Coords, EltTy.bits .bf16 = 32 ∨ (Rect.block (s := S128x8192) S128x8192.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8192.size a ≤ S1x8192.size a
  hwx0_2 : ∀ i : grid0.Coords, EltTy.bits .f32 = 32 ∨ (Rect.block (s := S1x8192) S1x8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x8192.size a ≤ S16384x8192.size a
  hwx0_3 : ∀ i : grid0.Coords, EltTy.bits .f32 = 32 ∨ (Rect.block (s := S16384x8192) S128x8192.size (cc0_transform_3 i) (hinb0_3 i)).WholeWords (EltTy.packing .f32)

variable [Facts₀]

def dot_S128x128_S128x8192_S128x8192_1_0_0_1_n_n : DotDims S128x128 S128x8192 S128x8192 where
  lhsContracting := [1]
  rhsContracting := [0]
  lhsNonContracting := [0]
  rhsNonContracting := [1]
  lhsBatch := []
  rhsBatch := []
  wf := dot_S128x128_S128x8192_S128x8192_1_0_0_1_n_n_wf

abbrev win0_0 : Pipeline.Window sig grid0 :=
  Pipeline.Window.ofSpec (Memref.whole main_arg0) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S128x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S128x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x128 : Shape := ⟨2, ![16384, 128]⟩
abbrev S128x64 : Shape := ⟨2, ![128, 64]⟩
abbrev S16384x128x1 : Shape := ⟨3, ![16384, 128, 1]⟩
abbrev S1x128x64 : Shape := ⟨3, ![1, 128, 64]⟩
abbrev S16384x128x64 : Shape := ⟨3, ![16384, 128, 64]⟩
abbrev S_ : Shape := ⟨0, ![]⟩
abbrev S16384x8192 : Shape := ⟨2, ![16384, 8192]⟩

abbrev nBuf : Space → Nat
  | .hbm => 15
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S128x64, .f32⟩
  | .hbm, ⟨2, _⟩ => ⟨S128x64, .f32⟩
  | .hbm, ⟨3, _⟩ => ⟨S16384x128x1, .f32⟩
  | .hbm, ⟨4, _⟩ => ⟨S1x128x64, .f32⟩
  | .hbm, ⟨5, _⟩ => ⟨S16384x128x64, .f32⟩
  | .hbm, ⟨6, _⟩ => ⟨S16384x128x64, .f32⟩
  | .hbm, ⟨7, _⟩ => ⟨S16384x128x64, .f32⟩
  | .hbm, ⟨8, _⟩ => ⟨S1x128x64, .f32⟩
  | .hbm, ⟨9, _⟩ => ⟨S16384x128x64, .f32⟩
  | .hbm, ⟨10, _⟩ => ⟨S16384x128x64, .f32⟩
  | .hbm, ⟨11, _⟩ => ⟨S_, .f32⟩
  | .hbm, ⟨12, _⟩ => ⟨S16384x128x64, .f32⟩
  | .hbm, ⟨13, _⟩ => ⟨S16384x128x64, .f32⟩
  | .hbm, ⟨14, _⟩ => ⟨S16384x8192, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_call0_cst : Ref sig .tc := ⟨.hbm, 11, rfl⟩
abbrev main_call0_v0 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]

class Facts₀ : Prop where
  bcast_S16384x128_S16384x128x1_0_1 : S16384x128.BroadcastsInDim S16384x128x1 (![0, 1] : Fin 2 → Fin S16384x128x1.rank)
  bcast_S128x64_S1x128x64_1_2 : S128x64.BroadcastsInDim S1x128x64 (![1, 2] : Fin 2 → Fin S1x128x64.rank)
  bcast_S16384x128x1_S16384x128x64_0_1_2 : S16384x128x1.BroadcastsInDim S16384x128x64 (![0, 1, 2] : Fin 3 → Fin S16384x128x64.rank)
  bcast_S1x128x64_S16384x128x64_0_1_2 : S1x128x64.BroadcastsInDim S16384x128x64 (![0, 1, 2] : Fin 3 → Fin S16384x128x64.rank)
  bcast_S_S16384x128x64 : S_.BroadcastsInDim S16384x128x64 (![] : Fin 0 → Fin S16384x128x64.rank)
  shapeCasts_S16384x128x64_S16384x8192 : S16384x128x64.ShapeCasts S16384x8192

variable [Facts₀]

class Facts : Prop extends Facts₀ where

variable [Facts]
-- ==== Proof.EmbedSpec.lean ====
/-
  The feature embedder as one function of its arguments.

  For a batch of rows `x : [16384, 128]`, per-feature weights `W : [128, 64]` and biases `b : [128, 64]`, output
  column `q` of row `r` belongs to feature `f = q / 64` and embedding slot `s = q % 64`, and holds
  `max (x r f · W f s + b f s) 0`. Beside it, the one law the block-diagonal formulation rests on: a sum over all
  features `k` of `x k · (δ k f · w)`, `δ` the Kronecker delta, has the single surviving term `x f · w` — on the
  extended reals too, where a product with zero is zero whatever the other factor.
-/
import Idealize.ShloMosaic.PureOps.Ideal
import Idealize.ShloMosaic.Lib.ValueIdx

noncomputable section

open scoped BigOperators

namespace Cert.Embed

open Idealize.ShloMosaic Idealize.ShloMosaic.ValueIdx

/-- The feature an output column belongs to. -/
def feat (q : Fin 8192) : Fin 128 := ⟨q.val / 64, by have := q.isLt; omega⟩

/-- The embedding slot of an output column inside its feature. -/
def slot (q : Fin 8192) : Fin 64 := ⟨q.val % 64, by omega⟩

theorem feat_val (q : Fin 8192) : (feat q).val = q.val / 64 := rfl
theorem slot_val (q : Fin 8192) : (slot q).val = q.val % 64 := rfl

/-- One output entry: the affine map of feature `feat q` at slot `slot q`, applied to `x r (feat q)`, then clamped
    below at zero. -/
def entry (x : (⟨2, ![16384, 128]⟩ : Shape).Idx → EReal) (W b : (⟨2, ![128, 64]⟩ : Shape).Idx → EReal)
    (r : Fin 16384) (q : Fin 8192) : EReal :=
  max (x (ix2 r (feat q)) * W (ix2 (feat q) (slot q)) + b (ix2 (feat q) (slot q))) 0

/-- The whole output array. -/
def embed (x : (⟨2, ![16384, 128]⟩ : Shape).Idx → EReal) (W b : (⟨2, ![128, 64]⟩ : Shape).Idx → EReal) :
    (⟨2, ![16384, 8192]⟩ : Shape).Idx → EReal :=
  fun i => entry x W b (i 0) (i 1)

theorem embed_ix2 (x : (⟨2, ![16384, 128]⟩ : Shape).Idx → EReal) (W b : (⟨2, ![128, 64]⟩ : Shape).Idx → EReal)
    (r : Fin 16384) (q : Fin 8192) : embed x W b (ix2 r q) = entry x W b r q := rfl

/-- The Kronecker delta as an extended real. -/
def delta (k f : Fin 128) : EReal := if k = f then 1 else 0

/-- A sum against a delta-weighted factor keeps its one diagonal term: off the diagonal the factor `0 · w` is zero and
    so is its product with anything; on it `1 · w = w`. -/
theorem diag_sum (x : Fin 128 → EReal) (w : EReal) (f : Fin 128) :
    ∑ k : Fin 128, x k * (delta k f * w) = x f * w := by
  rw [Finset.sum_eq_single f]
  · unfold delta; rw [if_pos rfl, one_mul]
  · intro k _ hk; unfold delta; rw [if_neg hk, zero_mul, mul_zero]
  · intro h; exact absurd (Finset.mem_univ f) h

end Cert.Embed

end
-- ==== Proof.RefEmbed.lean ====
/-
  The reference computes the embedder entry by entry.

  Its program broadcasts `x` to `[16384, 128, 64]` along the slot axis and `W`, `b` along the row axis, multiplies, adds,
  clamps below at zero and flattens the last two axes. Entry `(r, q)` of the flattened result is entry
  `(r, q / 64, q % 64)` of the three-axis array (row-major position `r · 8192 + q` either way), and there the broadcasts
  read `x r (q / 64)`, `W (q / 64) (q % 64)` and `b (q / 64) (q % 64)`.
-/
import proofs.«125748_j2791728742828_1_alg».proof.Proof.Gen.ReferenceIdeal.Read
import proofs.«125748_j2791728742828_1_alg».proof.Proof.EmbedSpec
import Idealize.ShloMosaic.PureOps.Ideal.Laws

noncomputable section

namespace Cert.ReferenceIdeal.RefEmbed

open Cert.ReferenceIdeal Cert.ReferenceIdeal.Read Cert.Embed
open Idealize.ShloMosaic Idealize.ShloMosaic.ValueIdx

/-- Through the flattening and the two broadcasts of `x`, output entry `i` reads `x` at row `i 0`, feature `(i 1) / 64`. -/
theorem idx_x (i : S16384x8192.Idx) : idx_main_v0 (idx_main_v2 (idx_main_v9 i)) = ix2 (i 0) (feat (i 1)) := by
  have h0 : (i 0).val < 16384 := (i 0).isLt
  have h1 : (i 1).val < 8192 := (i 1).isLt
  funext a; refine Fin.ext ?_
  match a with
  | ⟨0, _⟩ => show ((i 0).val * 8192 + (i 1).val) / 8192 = (i 0).val; omega
  | ⟨1, _⟩ => show ((i 0).val * 8192 + (i 1).val) / 64 % 128 = (i 1).val / 64; omega

/-- Through the flattening and the two broadcasts of a per-feature table, output entry `i` reads the table at feature
    `(i 1) / 64`, slot `(i 1) % 64`. -/
theorem idx_w (i : S16384x8192.Idx) : idx_main_v1 (idx_main_v3 (idx_main_v9 i)) = ix2 (feat (i 1)) (slot (i 1)) := by
  have h0 : (i 0).val < 16384 := (i 0).isLt
  have h1 : (i 1).val < 8192 := (i 1).isLt
  funext a; refine Fin.ext ?_
  match a with
  | ⟨0, _⟩ => show ((i 0).val * 8192 + (i 1).val) / 64 % 128 = (i 1).val / 64; omega
  | ⟨1, _⟩ => show ((i 0).val * 8192 + (i 1).val) % 64 = (i 1).val % 64; omega

theorem idx_b (i : S16384x8192.Idx) : idx_main_v5 (idx_main_v6 (idx_main_v9 i)) = ix2 (feat (i 1)) (slot (i 1)) := by
  have h0 : (i 0).val < 16384 := (i 0).isLt
  have h1 : (i 1).val < 8192 := (i 1).isLt
  funext a; refine Fin.ext ?_
  match a with
  | ⟨0, _⟩ => show ((i 0).val * 8192 + (i 1).val) / 64 % 128 = (i 1).val / 64; omega
  | ⟨1, _⟩ => show ((i 0).val * 8192 + (i 1).val) % 64 = (i 1).val % 64; omega

/-- The reference's result is the embedder of its three arguments. -/
theorem val_eq_embed (x : (⟨S16384x128, .f32⟩ : BufTy).Contents (Elt Ideal)) (W b : (⟨S128x64, .f32⟩ : BufTy).Contents (Elt Ideal)) :
    val_main_v9 (F := Ideal) x W b = embed x W b := by
  funext i
  rw [val_main_v9_apply, val_main_v8_apply, val_main_v7_apply, val_main_v4_apply, val_main_v2_apply, val_main_v0_apply,
    val_main_v3_apply, val_main_v1_apply, val_main_v6_apply, val_main_v5_apply, val_main_call0_v0_apply,
    val_main_call0_cst_apply, idx_x, idx_w, idx_b]
  simp only [Ideal.maximumf_def, Ideal.addf_def, Ideal.mulf_def, Ideal.ofBits_def, Ideal.ofBits_zero_f32]
  rfl

end Cert.ReferenceIdeal.RefEmbed

end
-- ==== Proof.LibPlainDot.lean ====
/-
  A matrix product read at an entry.

  A product of an \`M × K\` by a \`K × N\` matrix whose dimension numbers contract the left operand's columns with the
  right operand's rows, keep the left rows and the right columns in that order, and have no batch axis. At result
  entry \`(i, j)\` and contraction position \`k\` the left operand is read at \`(i, k)\` and the right at \`(k, j)\`, and the
  one-axis contraction index set is its coordinate range \`Fin K\`; so the sum over the contraction index is the
  textbook \`∑ q, A i q * B q j\`. The same for a stack of \`B\` such products, member by member (one batch axis, the
  first of both operands and of the result). Stated for ANY dimension-number record with those lists, at the
  extended reals, for the accumulating block product into a zero accumulator and for the host's product.
-/
import Idealize.ShloMosaic.PureOps.Ideal
import Idealize.ShloMosaic.PureOps.Ideal.Laws
import Idealize.ShloMosaic.Lib.ValueIdx

noncomputable section

open scoped BigOperators

namespace Cert.LibPlainDot

open Idealize.ShloMosaic Idealize.ShloMosaic.ValueIdx

/-! ## The plain product

The contraction shape lists the sizes of the left operand's contracted axes: here the one size \`K\`. Off the contracted
axis an operand index reads the result index: the left operand's row is the result's row, the right operand's column
the result's column. Each fact is read off the record once its lists are the stated literals. -/

section Plain

variable {M K N : Nat} (d : DotDims (⟨2, ![M, K]⟩ : Shape) (⟨2, ![K, N]⟩ : Shape) (⟨2, ![M, N]⟩ : Shape))
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb

/-- The contraction index set has one axis … -/
theorem contr_rank : d.contr.rank = 1 := by
  obtain ⟨lc, rc, ln, rn, lb, rb, wf⟩ := d
  subst hlc hrc hln hrn hlb hrb
  rfl

/-- … of extent \`K\`, the left operand's number of columns. -/
theorem contr_size (h : 0 < d.contr.rank) : d.contr.size ⟨0, h⟩ = K := by
  obtain ⟨lc, rc, ln, rn, lb, rb, wf⟩ := d
  subst hlc hrc hln hrn hlb hrb
  rfl

/-- The left operand's row is the result's row. -/
theorem lhs_row (i : Fin M) (j : Fin N) (k : d.contr.Idx) : (d.lhsIdx (ix2 i j) k 0).val = i.val := by
  obtain ⟨lc, rc, ln, rn, lb, rb, wf⟩ := d
  subst hlc hrc hln hrn hlb hrb
  rfl

/-- The right operand's column is the result's column. -/
theorem rhs_col (i : Fin M) (j : Fin N) (k : d.contr.Idx) : (d.rhsIdx (ix2 i j) k 1).val = j.val := by
  obtain ⟨lc, rc, ln, rn, lb, rb, wf⟩ := d
  subst hlc hrc hln hrn hlb hrb
  rfl

/-- THE CONTRACTION'S SUM OF A PLAIN PRODUCT at entry \`(i, j)\` is the matrix product's entry: at contraction position
    \`k\` with coordinate \`q\` the left operand is read at \`(i, q)\` and the right at \`(q, j)\`, and the positions
    correspond one to one to the coordinates \`q : Fin K\`, so the sum is re-indexed by them. -/
theorem plain_sum (l : (⟨2, ![M, K]⟩ : Shape).Idx → EReal) (r : (⟨2, ![K, N]⟩ : Shape).Idx → EReal)
    (i : Fin M) (j : Fin N) :
    (∑ k : d.contr.Idx, l (d.lhsIdx (ix2 i j) k) * r (d.rhsIdx (ix2 i j) k))
      = ∑ q : Fin K, l (ix2 i q) * r (ix2 q j) := by
  have h1 := contr_rank d hlc hrc hln hrn hlb hrb
  have hK := contr_size d hlc hrc hln hrn hlb hrb (by omega)
  -- the operand indices at position \`k\`, by coordinates
  have hl : ∀ k : d.contr.Idx, d.lhsIdx (ix2 i j) k = ix2 i (contrEquiv1 d K h1 hK k) := by
    intro k
    funext a
    refine Fin.ext ?_
    match a with
    | ⟨0, _⟩ => exact lhs_row d hlc hrc hln hrn hlb hrb i j k
    | ⟨1, _⟩ => exact d.lhsIdx_val_of_single hlc (ix2 i j) k
  have hr : ∀ k : d.contr.Idx, d.rhsIdx (ix2 i j) k = ix2 (contrEquiv1 d K h1 hK k) j := by
    intro k
    funext a
    refine Fin.ext ?_
    match a with
    | ⟨0, _⟩ => exact d.rhsIdx_val_of_single hrc (ix2 i j) k
    | ⟨1, _⟩ => exact rhs_col d hlc hrc hln hrn hlb hrb i j k
  calc (∑ k : d.contr.Idx, l (d.lhsIdx (ix2 i j) k) * r (d.rhsIdx (ix2 i j) k))
      = ∑ k : d.contr.Idx, (fun q : Fin K => l (ix2 i q) * r (ix2 q j)) (contrEquiv1 d K h1 hK k) :=
        Finset.sum_congr rfl fun k _ => by rw [hl k, hr k]
    _ = ∑ q : Fin K, l (ix2 i q) * r (ix2 q j) :=
        Equiv.sum_comp (contrEquiv1 d K h1 hK) fun q : Fin K => l (ix2 i q) * r (ix2 q j)
    _ = ∑ q : Fin K, l (ix2 i q) * r (ix2 q j) := rfl

/-- A block product into the zero accumulator, read at \`(i, j)\`, is the matrix product's entry. -/
theorem matmul_zero_apply (prec : Option ContractPrecision) (l : FVec Ideal (⟨2, ![M, K]⟩ : Shape) .f32)
    (r : FVec Ideal (⟨2, ![K, N]⟩ : Shape) .f32) (i : Fin M) (j : Fin N) :
    FloatOps.matmul d prec l r (constant (⟨2, ![M, N]⟩ : Shape) .f32 0x00000000#32) (ix2 i j)
      = ∑ q : Fin K, l (ix2 i q) * r (ix2 q j) := by
  rw [Ideal.matmul_constant_zero_apply]
  exact plain_sum d hlc hrc hln hrn hlb hrb l r i j

/-- The same, with the block product spelled by its vector-level name. -/
theorem matmul_zero_apply' (prec : Option ContractPrecision) (l : FVec Ideal (⟨2, ![M, K]⟩ : Shape) .f32)
    (r : FVec Ideal (⟨2, ![K, N]⟩ : Shape) .f32) (i : Fin M) (j : Fin N) :
    matmul d prec l r (constant (⟨2, ![M, N]⟩ : Shape) .f32 0x00000000#32) (ix2 i j)
      = ∑ q : Fin K, l (ix2 i q) * r (ix2 q j) :=
  matmul_zero_apply d hlc hrc hln hrn hlb hrb prec l r i j

/-- The host's product, read at \`(i, j)\`, is the matrix product's entry. -/
theorem hostDot_apply (prec : Option ContractPrecision) (l : FVec Ideal (⟨2, ![M, K]⟩ : Shape) .f32)
    (r : FVec Ideal (⟨2, ![K, N]⟩ : Shape) .f32) (i : Fin M) (j : Fin N) :
    Host.dotGeneral d prec l r (ix2 i j) = ∑ q : Fin K, l (ix2 i q) * r (ix2 q j) := by
  show FloatOps.dotGeneral d prec .single l r (ix2 i j) = _
  rw [Ideal.dotGeneral_apply]
  exact plain_sum d hlc hrc hln hrn hlb hrb l r i j

end Plain

/-! ## The stack of products

One batch axis, the first of both operands and of the result; the left operand's last axis is contracted with the
right operand's middle one. Both operands read the result's batch coordinate; the left operand's row is the result's
row, the right operand's column the result's column. -/

section Batched

variable {B M K N : Nat}
  (d : DotDims (⟨3, ![B, M, K]⟩ : Shape) (⟨3, ![B, K, N]⟩ : Shape) (⟨3, ![B, M, N]⟩ : Shape))
  (hlc : d.lhsContracting = [2]) (hrc : d.rhsContracting = [1]) (hln : d.lhsNonContracting = [1])
  (hrn : d.rhsNonContracting = [2]) (hlb : d.lhsBatch = [0]) (hrb : d.rhsBatch = [0])

include hlc hrc hln hrn hlb hrb

/-- The contraction index set has one axis … -/
theorem contr_rank3 : d.contr.rank = 1 := by
  obtain ⟨lc, rc, ln, rn, lb, rb, wf⟩ := d
  subst hlc hrc hln hrn hlb hrb
  rfl

/-- … of extent \`K\`, the size of the left operand's last axis. -/
theorem contr_size3 (h : 0 < d.contr.rank) : d.contr.size ⟨0, h⟩ = K := by
  obtain ⟨lc, rc, ln, rn, lb, rb, wf⟩ := d
  subst hlc hrc hln hrn hlb hrb
  rfl

/-- The left operand's member is the result's member … -/
theorem lhs_batch3 (b : Fin B) (i : Fin M) (j : Fin N) (k : d.contr.Idx) :
    (d.lhsIdx (ix3 b i j) k 0).val = b.val := by
  obtain ⟨lc, rc, ln, rn, lb, rb, wf⟩ := d
  subst hlc hrc hln hrn hlb hrb
  rfl

/-- … and its row the result's row. -/
theorem lhs_row3 (b : Fin B) (i : Fin M) (j : Fin N) (k : d.contr.Idx) :
    (d.lhsIdx (ix3 b i j) k 1).val = i.val := by
  obtain ⟨lc, rc, ln, rn, lb, rb, wf⟩ := d
  subst hlc hrc hln hrn hlb hrb
  rfl

/-- The right operand's member is the result's member … -/
theorem rhs_batch3 (b : Fin B) (i : Fin M) (j : Fin N) (k : d.contr.Idx) :
    (d.rhsIdx (ix3 b i j) k 0).val = b.val := by
  obtain ⟨lc, rc, ln, rn, lb, rb, wf⟩ := d
  subst hlc hrc hln hrn hlb hrb
  rfl

/-- … and its column the result's column. -/
theorem rhs_col3 (b : Fin B) (i : Fin M) (j : Fin N) (k : d.contr.Idx) :
    (d.rhsIdx (ix3 b i j) k 2).val = j.val := by
  obtain ⟨lc, rc, ln, rn, lb, rb, wf⟩ := d
  subst hlc hrc hln hrn hlb hrb
  rfl

/-- THE HOST'S PRODUCT OF TWO STACKS, member by member, read at \`(b, i, j)\`, is entry \`(i, j)\` of the product of the
    two members \`b\`: at contraction position \`k\` with coordinate \`q\` the left stack is read at \`(b, i, q)\` and the
    right at \`(b, q, j)\`, and the sum is re-indexed by \`q : Fin K\`. -/
theorem batchDot_apply (prec : Option ContractPrecision) (l : FVec Ideal (⟨3, ![B, M, K]⟩ : Shape) .f32)
    (r : FVec Ideal (⟨3, ![B, K, N]⟩ : Shape) .f32) (b : Fin B) (i : Fin M) (j : Fin N) :
    Host.dotGeneral d prec l r (ix3 b i j)
      = ∑ q : Fin K, l (ix3 b i q) * r (ix3 b q j) := by
  have h1 := contr_rank3 d hlc hrc hln hrn hlb hrb
  have hK := contr_size3 d hlc hrc hln hrn hlb hrb (by omega)
  have hl : ∀ k : d.contr.Idx, d.lhsIdx (ix3 b i j) k = ix3 b i (contrEquiv1 d K h1 hK k) := by
    intro k
    funext a
    refine Fin.ext ?_
    match a with
    | ⟨0, _⟩ => exact lhs_batch3 d hlc hrc hln hrn hlb hrb b i j k
    | ⟨1, _⟩ => exact lhs_row3 d hlc hrc hln hrn hlb hrb b i j k
    | ⟨2, _⟩ => exact d.lhsIdx_val_of_single hlc (ix3 b i j) k
  have hr : ∀ k : d.contr.Idx, d.rhsIdx (ix3 b i j) k = ix3 b (contrEquiv1 d K h1 hK k) j := by
    intro k
    funext a
    refine Fin.ext ?_
    match a with
    | ⟨0, _⟩ => exact rhs_batch3 d hlc hrc hln hrn hlb hrb b i j k
    | ⟨1, _⟩ => exact d.rhsIdx_val_of_single hrc (ix3 b i j) k
    | ⟨2, _⟩ => exact rhs_col3 d hlc hrc hln hrn hlb hrb b i j k
  show FloatOps.dotGeneral d prec .single l r (ix3 b i j) = _
  rw [Ideal.dotGeneral_apply]
  calc (∑ k : d.contr.Idx, l (d.lhsIdx (ix3 b i j) k) * r (d.rhsIdx (ix3 b i j) k))
      = ∑ k : d.contr.Idx, (fun q : Fin K => l (ix3 b i q) * r (ix3 b q j)) (contrEquiv1 d K h1 hK k) :=
        Finset.sum_congr rfl fun k _ => by rw [hl k, hr k]
    _ = ∑ q : Fin K, l (ix3 b i q) * r (ix3 b q j) :=
        Equiv.sum_comp (contrEquiv1 d K h1 hK) fun q : Fin K => l (ix3 b i q) * r (ix3 b q j)
    _ = ∑ q : Fin K, l (ix3 b i q) * r (ix3 b q j) := rfl

end Batched

end Cert.LibPlainDot

end
-- ==== Proof.BodyEntry.lean ====
/-
  One entry of what the kernel body stores.

  The body multiplies its `[128, 128]` block of `x` by the whole `[128, 8192]` block-diagonal weight matrix, adds the
  `[1, 8192]` bias row to every row and clamps below at zero. A change of float format is the identity on the extended
  reals, the two same-shape casts are identities, the product into a zero accumulator is the plain sum over the 128
  contracted positions, and the bias row broadcast reads its one row.
-/
import proofs.«125748_j2791728742828_1_alg».proof.Proof.Gen.KernelIdeal.Skeleton
import proofs.«125748_j2791728742828_1_alg».proof.Proof.LibPlainDot
import Idealize.ShloMosaic.Lib.ValueLayout
import Idealize.ShloMosaic.Lib.Pipeline.Value
import Idealize.ShloMosaic.PureOps.Ideal.Laws

noncomputable section

open scoped BigOperators

namespace Cert.KernelIdeal.BodyEntry

open Cert.KernelIdeal Cert.KernelIdeal.Gen
open Idealize.ShloMosaic Idealize.ShloMosaic.TcCoe Idealize.ShloMosaic.ValueIdx

/-- Entry `(p, q)` of the body's stored value, from its three loaded blocks. -/
theorem pay_apply (x0 : Vec Ideal S128x128 .f32) (x1 : Vec Ideal S128x8192 .bf16) (x2 : Vec Ideal S1x8192 .f32)
    (p : Fin 128) (q : Fin 8192) :
    k0_pay1 (F := Ideal) x0 x1 x2 (ix2 p q)
      = max ((∑ k : Fin 128, x0 (ix2 p k) * x1 (ix2 k q)) + x2 (ix2 0 q)) 0 := by
  unfold k0_pay1
  simp only [maximumf_apply, addf_apply, broadcast_apply]
  rw [shapeCast_self, shapeCast_self,
    broadcastTo_1b_ab_apply (a := 128) (b := 8192) x2 broadcasts_S1x8192_S128x8192 p q]
  simp only [matmul]
  have hsum : (∑ k : dot_S128x128_S128x8192_S128x8192_1_0_0_1_n_n.contr.Idx,
        x0 (dot_S128x128_S128x8192_S128x8192_1_0_0_1_n_n.lhsIdx (ix2 p q) k)
          * x1 (dot_S128x128_S128x8192_S128x8192_1_0_0_1_n_n.rhsIdx (ix2 p q) k))
      = ∑ k : Fin 128, x0 (ix2 p k) * x1 (ix2 k q) :=
    Cert.LibPlainDot.plain_sum dot_S128x128_S128x8192_S128x8192_1_0_0_1_n_n rfl rfl rfl rfl rfl rfl x0 x1 p q
  rw [Ideal.matmul_constant_zero_apply]
  simp only [truncf_apply]
  rw [hsum, Ideal.ofBits_def, Ideal.ofBits_zero_f32]

end Cert.KernelIdeal.BodyEntry

end
-- ==== Proof.HostPrefix.lean ====
/-
  What the region finds in the two arrays the host prepares.

  Before the region the host builds the identity matrix `[128, 128]` (row number equal to column number, as a float),
  broadcasts it along a new last axis and `W` along a new first axis to `[128, 128, 64]`, multiplies, flattens the last
  two axes to `[128, 8192]` and changes the float format (the identity on the extended reals): entry `(k, q)` is
  `δ k (q / 64) · W (q / 64) (q % 64)`. The bias is flattened to one row of 8192: entry `(0, q)` is `b (q / 64) (q % 64)`.
-/
import proofs.«125748_j2791728742828_1_alg».proof.Proof.Gen.KernelIdeal.Frame
import proofs.«125748_j2791728742828_1_alg».proof.Proof.EmbedSpec
import Idealize.ShloMosaic.Lib.StableHlo.Run
import Idealize.ShloMosaic.Lib.StableHlo.Predicate
import Idealize.ShloMosaic.Lib.Pipeline.Value
import Idealize.ShloMosaic.Lib.ValueIdx
import Idealize.ShloMosaic.PureOps.Ideal

noncomputable section

namespace Cert.KernelIdeal.HostPrefix

open Cert.KernelIdeal Cert.KernelIdeal.Gen Cert.Embed
open Idealize.ShloMosaic Idealize.ShloMosaic.TcCoe Idealize.ShloMosaic.ValueIdx Idealize.SL.Sem Idealize.ShloMosaic.StableHlo

/-! ## The identity matrix's entries -/

/-- Row number `k` compared with column number `f`, as 32-bit words (both below 128, so the words are equal exactly
    when the numbers are), then read as a float: the Kronecker delta. -/
theorem eye_entry (k f : Fin 128) :
    (FloatOps.uitofp (F := Ideal) .f32
        (IntOp.cmpi .eq (IntOp.addi (BitVec.ofNat 32 k.val) 0#32) (BitVec.ofNat 32 f.val)) : EReal) = delta k f := by
  have hk := k.isLt
  have hf := f.isLt
  by_cases h : k = f
  · subst h
    have e : IntOp.cmpi .eq (IntOp.addi (BitVec.ofNat 32 k.val) 0#32) (BitVec.ofNat 32 k.val) = 1#1 :=
      StableHlo.Predicate.cmpi_eq_iff.mpr (by unfold IntOp.addi; rw [BitVec.add_zero])
    rw [e]; unfold delta; rw [if_pos rfl]
    show (((1#1 : BitVec 1).toNat : ℝ) : EReal) = 1
    simp
  · have e : ¬ IntOp.cmpi .eq (IntOp.addi (BitVec.ofNat 32 k.val) 0#32) (BitVec.ofNat 32 f.val) = 1#1 := fun e => h (by
      have e' := StableHlo.Predicate.cmpi_eq_iff.mp e
      unfold IntOp.addi at e'
      rw [BitVec.add_zero] at e'
      have e'' := congrArg BitVec.toNat e'
      simp only [BitVec.toNat_ofNat] at e''
      exact Fin.ext (by omega))
    rw [eq_zero_of_ne_one e]; unfold delta; rw [if_neg h]
    show (((0#1 : BitVec 1).toNat : ℝ) : EReal) = 0
    simp

/-! ## The block-diagonal weight matrix -/

/-- The host's term for the matrix, as a function of `W`. -/
def wbig (W : S128x64.Idx → EReal) : S128x8192.Idx → EReal :=
  truncf (F := Ideal) .bf16
    (shapeCast S128x8192
      (mulf (F := Ideal) (φ := .f32)
        (broadcastInDim S128x128x64 ![0, 1, 2] bcast_S128x128x1_S128x128x64_0_1_2
          (broadcastInDim S128x128x1 ![0, 1] bcast_S128x128_S128x128x1_0_1
            (uitofp (F := Ideal) .f32
              (cmpi .eq (addi (iotaInDim S128x128 32 0) (broadcastInDim S128x128 ![] bcast_S_S128x128 (constantI S_ 32 0#32)))
                (iotaInDim S128x128 32 1)))))
        (broadcastInDim S128x128x64 ![0, 1, 2] bcast_S1x128x64_S128x128x64_0_1_2
          (broadcastInDim S1x128x64 ![1, 2] bcast_S128x64_S1x128x64_1_2 W)))
      shapeCasts_S128x128x64_S128x8192)
    bitsLt_bf16_f32

/-- Entry `(k, q)` of the matrix: the delta of `k` and the column's feature, times the feature's weight at the column's
    slot. -/
theorem wbig_apply (W : S128x64.Idx → EReal) (k : Fin 128) (q : Fin 8192) :
    wbig W (ix2 k q) = delta k (feat q) * W (ix2 (feat q) (slot q)) := by
  have hq := q.isLt
  unfold wbig
  rw [truncf_apply,
    shapeCast_apply _ shapeCasts_S128x128x64_S128x8192 (ix2 k q) (ix3 k (feat q) (slot q)) (by
      rw [Shape.rowMajor_val_three, Shape.rowMajor_val_two]
      show (k.val * 128 + q.val / 64) * 64 + q.val % 64 = k.val * 8192 + q.val
      omega),
    mulf_apply,
    broadcastInDim_apply _ bcast_S128x128x1_S128x128x64_0_1_2 _ (ix3 k (feat q) (slot q)) (ix3 k (feat q) (0 : Fin 1)) (fun a =>
      match a with
      | ⟨0, _⟩ => by show k.val = if (128 : Nat) = 1 then 0 else k.val; rw [if_neg (by decide)]
      | ⟨1, _⟩ => by show (feat q).val = if (128 : Nat) = 1 then 0 else (feat q).val; rw [if_neg (by decide)]
      | ⟨2, _⟩ => by show 0 = if (1 : Nat) = 1 then 0 else (slot q).val; rw [if_pos rfl]),
    broadcastInDim_apply _ bcast_S128x128_S128x128x1_0_1 _ (ix3 k (feat q) (0 : Fin 1)) (ix2 k (feat q)) (fun a =>
      match a with
      | ⟨0, _⟩ => by show k.val = if (128 : Nat) = 1 then 0 else k.val; rw [if_neg (by decide)]
      | ⟨1, _⟩ => by show (feat q).val = if (128 : Nat) = 1 then 0 else (feat q).val; rw [if_neg (by decide)]),
    broadcastInDim_apply _ bcast_S1x128x64_S128x128x64_0_1_2 _ (ix3 k (feat q) (slot q)) (ix3 (0 : Fin 1) (feat q) (slot q)) (fun a =>
      match a with
      | ⟨0, _⟩ => by show 0 = if (1 : Nat) = 1 then 0 else k.val; rw [if_pos rfl]
      | ⟨1, _⟩ => by show (feat q).val = if (128 : Nat) = 1 then 0 else (feat q).val; rw [if_neg (by decide)]
      | ⟨2, _⟩ => by show (slot q).val = if (64 : Nat) = 1 then 0 else (slot q).val; rw [if_neg (by decide)]),
    broadcastInDim_apply _ bcast_S128x64_S1x128x64_1_2 W (ix3 (0 : Fin 1) (feat q) (slot q)) (ix2 (feat q) (slot q)) (fun a =>
      match a with
      | ⟨0, _⟩ => by show (feat q).val = if (128 : Nat) = 1 then 0 else (feat q).val; rw [if_neg (by decide)]
      | ⟨1, _⟩ => by show (slot q).val = if (64 : Nat) = 1 then 0 else (slot q).val; rw [if_neg (by decide)])]
  exact congrArg (· * W (ix2 (feat q) (slot q))) (eye_entry k (feat q))

/-! ## The bias row -/

/-- The host's term for the bias row, as a function of `b`. -/
def bbig (b : S128x64.Idx → EReal) : S1x8192.Idx → EReal :=
  shapeCast S1x8192 b shapeCasts_S128x64_S1x8192

/-- Entry `(0, q)` of the row: the bias of the column's feature at the column's slot. -/
theorem bbig_apply (b : S128x64.Idx → EReal) (q : Fin 8192) :
    bbig b (ix2 (0 : Fin 1) q) = b (ix2 (feat q) (slot q)) := by
  have hq := q.isLt
  unfold bbig
  exact shapeCast_apply b shapeCasts_S128x64_S1x8192 (ix2 (0 : Fin 1) q) (ix2 (feat q) (slot q)) (by
    rw [Shape.rowMajor_val_two, Shape.rowMajor_val_two]
    show q.val / 64 * 64 + q.val % 64 = 0 * 8192 + q.val
    omega)

/-! ## The arrays at the region's entry -/

variable (m : (ℓ : Loc nD τ sig) → Buf (Elt Ideal) ℓ)

/-- The region finds the block-diagonal matrix of the `W` it was launched with. -/
theorem V_main_v12 (c : Dev nD) :
    (V m c main_v12 : S128x8192.Idx → EReal) = wbig (m ((c : Thread nD τ).loc main_arg1)) := by
  dsimp only [Gen.V, Gen.hostOps0]
  after_results
  rfl

/-- The region finds the bias row of the `b` it was launched with. -/
theorem V_main_v13 (c : Dev nD) :
    (V m c main_v13 : S1x8192.Idx → EReal) = bbig (m ((c : Thread nD τ).loc main_arg2)) := by
  dsimp only [Gen.V, Gen.hostOps0]
  after_results
  rfl

end Cert.KernelIdeal.HostPrefix

end
-- ==== Proof.KernelEmbed.lean ====
/-
  The kernel's output array is the embedder of its arguments.

  Grid point `t` (of 128) stages rows `128 t … 128 t + 127` of `x`, the whole block-diagonal matrix and the whole bias
  row, and writes back rows `128 t … 128 t + 127` of the output. Entry `(p, q)` of what it writes is
  `max (∑ k, x (128 t + p) k · (δ k (q / 64) · W (q / 64) (q % 64)) + b (q / 64) (q % 64)) 0`; the sum keeps its one diagonal
  term, which makes it entry `(128 t + p, q)` of the embedder. The 128 row blocks tile the 16384 rows, so the whole
  array is the embedder.
-/
import proofs.«125748_j2791728742828_1_alg».proof.Proof.Gen.KernelIdeal.Value
import proofs.«125748_j2791728742828_1_alg».proof.Proof.EmbedSpec
import proofs.«125748_j2791728742828_1_alg».proof.Proof.BodyEntry
import proofs.«125748_j2791728742828_1_alg».proof.Proof.HostPrefix
import Idealize.ShloMosaic.Lib.Pipeline.Value
import Idealize.ShloMosaic.Lib.ValueIdx

noncomputable section

open scoped BigOperators

namespace Cert.KernelIdeal.KernelEmbed

open Cert.KernelIdeal Cert.KernelIdeal.Gen Cert.Embed
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The printed index maps over the grid: the `x` window and the output window are at row block `t`, column block 0;
    the matrix and the bias row stay at block `(0, 0)`. -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of point `t`'s block is row `128 t + p` of the array. -/
def row (t : Fin 128) (p : Fin 128) : Fin 16384 := ⟨t.val * 128 + p.val, by have := t.isLt; have := p.isLt; omega⟩

/-! ## The three staged blocks, entry by entry -/

/-- Point `t`'s block of `x`: rows `128 t …`, all 128 features. -/
theorem xblock_apply (c : Dev nD) (t : Fin cfg0.N) (p k : Fin 128) :
    iblk m c 0 t (ix2 p k) = m ((c : Thread nD τ).loc main_arg0) (ix2 (row t p) k) := by
  obtain ⟨e00, e01, -⟩ := index_maps t
  show V m c main_arg0 (((cfg0.win 0).blk t).view.emb (ix2 p k)) = _
  rw [V_main_arg0]
  refine congrArg _ (funext fun a => Fin.ext ?_)
  match a with
  | ⟨0, _⟩ => show win0_0.index t (0 : Fin 2) * 128 + 1 * p.val = t.val * 128 + p.val; omega
  | ⟨1, _⟩ => show win0_0.index t (1 : Fin 2) * 128 + 1 * k.val = k.val; omega

/-- The matrix is staged whole: its block at every point is the block-diagonal matrix of `W`. -/
theorem wblock_apply (c : Dev nD) (t : Fin cfg0.N) (k : Fin 128) (q : Fin 8192) :
    iblk m c 1 t (ix2 k q) = HostPrefix.wbig (m ((c : Thread nD τ).loc main_arg1)) (ix2 k q) := by
  obtain ⟨-, -, e10, e11, -⟩ := index_maps t
  show V m c main_v12 (((cfg0.win 1).blk t).view.emb (ix2 k q)) = _
  rw [HostPrefix.V_main_v12]
  refine congrArg _ (funext fun a => Fin.ext ?_)
  match a with
  | ⟨0, _⟩ => show win0_1.index t (0 : Fin 2) * 128 + 1 * k.val = k.val; omega
  | ⟨1, _⟩ => show win0_1.index t (1 : Fin 2) * 8192 + 1 * q.val = q.val; omega

/-- The bias row is staged whole. -/
theorem bblock_apply (c : Dev nD) (t : Fin cfg0.N) (q : Fin 8192) :
    iblk m c 2 t (ix2 (0 : Fin 1) q) = HostPrefix.bbig (m ((c : Thread nD τ).loc main_arg2)) (ix2 (0 : Fin 1) q) := by
  obtain ⟨-, -, -, -, e20, e21, -⟩ := index_maps t
  show V m c main_v13 (((cfg0.win 2).blk t).view.emb (ix2 (0 : Fin 1) q)) = _
  rw [HostPrefix.V_main_v13]
  refine congrArg _ (funext fun a => Fin.ext ?_)
  match a with
  | ⟨0, _⟩ => show win0_2.index t (0 : Fin 2) * 1 + 1 * 0 = 0; omega
  | ⟨1, _⟩ => show win0_2.index t (1 : Fin 2) * 8192 + 1 * q.val = q.val; omega

/-- Entry `(p, q)` of the output block lands on entry `(128 t + p, q)` of the output array. -/
theorem oblock_emb (t : Fin cfg0.N) (p : Fin 128) (q : Fin 8192) :
    ((cfg0.win 3).blk t).view.emb (ix2 p q) = ix2 (row t p) q := by
  obtain ⟨-, -, -, -, -, -, e30, e31⟩ := index_maps t
  refine funext fun a => Fin.ext ?_
  match a with
  | ⟨0, _⟩ => show win0_3.index t (0 : Fin 2) * 128 + 1 * p.val = t.val * 128 + p.val; omega
  | ⟨1, _⟩ => show win0_3.index t (1 : Fin 2) * 8192 + 1 * q.val = q.val; omega

/-! ## What a point writes back -/

/-- WHAT POINT `t` WRITES BACK is block `t` of the embedder of the arguments the program was launched with. -/
theorem flushed_eq (c : Dev nD) (t : Fin cfg0.N) :
    (dats m 0 c).flushed 3 t = ((cfg0.win 3).blk t).view.read (Elt Ideal)
      (embed (m ((c : Thread nD τ).loc main_arg0)) (m ((c : Thread nD τ).loc main_arg1)) (m ((c : Thread nD τ).loc main_arg2))) := by
  rw [Cert.KernelIdeal.Value.flushed3]
  unfold out0_3
  rw [View.canon_unit_zero zero_offsets]
  simp only [View.ld_unit_zero (S := S128x128) zero_offsets, View.ld_unit_zero (S := S128x8192) zero_offsets,
    View.ld_unit_zero (S := S1x8192) zero_offsets]
  funext j
  obtain ⟨p, q, rfl⟩ : ∃ (p : Fin 128) (q : Fin 8192), j = ix2 p q := ⟨j 0, j 1, eq_ix2 j⟩
  show k0_pay1 (F := Ideal) (iblk m c 0 t) (iblk m c 1 t) (iblk m c 2 t) (ix2 p q)
    = embed (m ((c : Thread nD τ).loc main_arg0)) (m ((c : Thread nD τ).loc main_arg1)) (m ((c : Thread nD τ).loc main_arg2))
        (((cfg0.win 3).blk t).view.emb (ix2 p q))
  rw [oblock_emb, embed_ix2]
  refine (BodyEntry.pay_apply (iblk m c 0 t) (iblk m c 1 t) (iblk m c 2 t) p q).trans ?_
  unfold entry
  rw [bblock_apply, HostPrefix.bbig_apply]
  refine congrArg (fun s => max (s + _) 0) ?_
  rw [← diag_sum (fun k => m ((c : Thread nD τ).loc main_arg0) (ix2 (row t p) k))
    (m ((c : Thread nD τ).loc main_arg1) (ix2 (feat q) (slot q))) (feat q)]
  refine Finset.sum_congr rfl fun k _ => ?_
  rw [xblock_apply, wblock_apply, HostPrefix.wbig_apply]

/-! ## The blocks tile the array -/

/-- An index of the array is in point `t`'s block iff each coordinate is in the block's range on its axis. -/
theorem mem_block (t : Fin cfg0.N) (i : S16384x8192.Idx) :
    i ∈ ((cfg0.win 3).blk t).view.set ↔ ∀ a : Fin 2, win0_3.index t a * S128x8192.size a ≤ (i a).val
      ∧ (i a).val < win0_3.index t a * S128x8192.size a + S128x8192.size a := by
  show i ∈ ((View.whole main_v14).slice (win0_3.rect t)).set ↔ _
  rw [View.set_slice_whole, Rect.mem_set_unit]
  exact Iff.rfl

/-- Row `r` of the array is written by point `r / 128`. -/
theorem covered (i : S16384x8192.Idx) :
    ∃ t : Fin cfg0.N, (cfg0.win 3).flush t = true ∧ i ∈ ((cfg0.win 3).blk t).view.set := by
  have hi0 : (i 0).val < 16384 := (i 0).isLt
  have hi1 : (i 1).val < 8192 := (i 1).isLt
  have ht : (i 0).val / 128 < 128 := by omega
  refine ⟨⟨(i 0).val / 128, ht⟩, flush0_3 _, ?_⟩
  rw [mem_block]
  obtain ⟨-, -, -, -, -, -, e30, e31⟩ := index_maps ⟨(i 0).val / 128, ht⟩
  have e30' : win0_3.index ⟨(i 0).val / 128, ht⟩ (0 : Fin 2) = (i 0).val / 128 := e30
  intro a
  match a with
  | ⟨0, _⟩ =>
    show win0_3.index ⟨(i 0).val / 128, ht⟩ (0 : Fin 2) * 128 ≤ (i 0).val
      ∧ (i 0).val < win0_3.index ⟨(i 0).val / 128, ht⟩ (0 : Fin 2) * 128 + 128
    omega
  | ⟨1, _⟩ =>
    show win0_3.index ⟨(i 0).val / 128, ht⟩ (1 : Fin 2) * 8192 ≤ (i 1).val
      ∧ (i 1).val < win0_3.index ⟨(i 0).val / 128, ht⟩ (1 : Fin 2) * 8192 + 8192
    omega

/-- THE ARRAY after the run is the embedder of the arguments. -/
theorem final (c : Dev nD) : (dats m 0 c).arrAt 3 cfg0.N
    = embed (m ((c : Thread nD τ).loc main_arg0)) (m ((c : Thread nD τ).loc main_arg1)) (m ((c : Thread nD τ).loc main_arg2)) :=
  (dats m 0 c).arrAt_eq_of_cover 3 _ (fun t _ => flushed_eq m c t) covered

/-! ## The run -/

/-- Every weakly fair execution of the program ends with the result array at the embedder of the arguments and the
    arguments unchanged. -/
theorem run : θ_run defs (onTc (τ := τ) (main (F := Ideal))) ⟨m, fun _ => 0, ρ⟩ fun r => ∀ c : Dev nD,
      r.2.mem ((c : Thread nD τ).loc main_v14)
        = embed (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.KernelEmbed

end
-- ==== Proof.lean ====
/-
  A per-feature affine embedding, computed as one block-diagonal matrix product, against its direct definition.

  For rows `x : [16384, 128]`, weights `W : [128, 64]` and biases `b : [128, 64]` the reference computes, at output entry
  `(r, q)` with feature `f = q / 64` and slot `s = q % 64`, the value `max (x r f · W f s + b f s) 0`. The kernel instead
  builds on the host the `[128, 8192]` matrix whose entry `(k, q)` is `δ k f · W f s` and the `[1, 8192]` row `b f s`, and in
  each of 128 row blocks multiplies the block of `x` by that matrix, adds the row and clamps below at zero. On the
  extended reals the product's entry is `∑ k, x r k · (δ k f · W f s)`, of which only the term `k = f` survives — a
  product with zero is zero there whatever the other factor — so both programs compute the same function of their
  arguments, entry by entry. No operation of the kernel was rewritten by the idealization, so that conjunct is trivial.

  The three frames are the generated ones (for the reference: its generated run with the result dropped). The value
  of the kernel is read off the generated blockwise run: the body's stored value at an entry (BodyEntry), the two arrays
  the host prepares (HostPrefix), and the blocks tiling the output (KernelEmbed); the reference's from the generated
  read-at-an-index lemmas (RefEmbed).
-/
import proofs.«125748_j2791728742828_1_alg».proof.Defs
import proofs.«125748_j2791728742828_1_alg».proof.Proof.Gen.Kernel
import proofs.«125748_j2791728742828_1_alg».proof.Proof.Gen.Kernel.Skeleton
import proofs.«125748_j2791728742828_1_alg».proof.Proof.Gen.Kernel.Launch
import proofs.«125748_j2791728742828_1_alg».proof.Proof.Gen.Kernel.Points
import proofs.«125748_j2791728742828_1_alg».proof.Proof.Gen.Kernel.Frame
import proofs.«125748_j2791728742828_1_alg».proof.Proof.Gen.KernelIdeal
import proofs.«125748_j2791728742828_1_alg».proof.Proof.Gen.KernelIdeal.Skeleton
import proofs.«125748_j2791728742828_1_alg».proof.Proof.Gen.KernelIdeal.Launch
import proofs.«125748_j2791728742828_1_alg».proof.Proof.Gen.KernelIdeal.Points
import proofs.«125748_j2791728742828_1_alg».proof.Proof.Gen.KernelIdeal.Frame
import proofs.«125748_j2791728742828_1_alg».proof.Proof.Gen.ReferenceIdeal
import proofs.«125748_j2791728742828_1_alg».proof.Proof.Gen.Pre_finite_inputs
import proofs.«125748_j2791728742828_1_alg».proof.Proof.Gen.KernelIdeal.Value
import proofs.«125748_j2791728742828_1_alg».proof.Proof.Gen.ReferenceIdeal.Run
import proofs.«125748_j2791728742828_1_alg».proof.Proof.Gen.ReferenceIdeal.Read
import proofs.«125748_j2791728742828_1_alg».proof.Proof.EmbedSpec
import proofs.«125748_j2791728742828_1_alg».proof.Proof.RefEmbed
import proofs.«125748_j2791728742828_1_alg».proof.Proof.KernelEmbed
import Idealize.ShloMosaic.Adequacy
import Idealize.ShloMosaic.Init

noncomputable section

namespace Cert.Proof

open Idealize.ShloMosaic Idealize.ShloMosaic.TcCoe Idealize.SL.Sem

/-- The word-level kernel runs and leaves its arguments alone. -/
theorem frame_kernel : @Cert.frame_Kernel Cert.Kernel.Gen.facts Cert.Pre_finite_inputs.Gen.facts :=
  fun m ρ _ => Cert.Kernel.Gen.frame m ρ

/-- So does the idealized kernel. -/
theorem frame_kernelIdeal : @Cert.frame_KernelIdeal Cert.KernelIdeal.Gen.facts Cert.Pre_finite_inputs.Gen.facts :=
  fun m ρ _ => Cert.KernelIdeal.Gen.frame m ρ

/-- And the reference: its run, the result forgotten. -/
theorem frame_referenceIdeal : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- From memories that agree on `x`, `W` and `b`, both idealized programs end with the embedder of those arguments in
    their result arrays. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨_, Cert.KernelIdeal.KernelEmbed.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefEmbed.val_eq_embed,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
